-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_

variable [Facts]

def fn_part2 {F : FTy → Type} [FloatOps F] (main_arg6 : FVec F S128 .f32) (main_arg8 : FVec F S128x128 .f32) (main_arg9 : FVec F S40x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S40x128 .f32 := Host.absf main_arg9
  let main_cst_14 : FVec F S_ .f32 := constant S_ .f32 0x7F800000#32
  let main_v40 : FVec F S40x128 .f32 := broadcastInDim S40x128 ![] bcast_S_S40x128 main_cst_14
  let main_v41 : IVec S40x128 1 := cmpf .olt main_v39 main_v40
  let main_c_15 : IVec S_ 1 := constantI S_ 1 1#1
  let main_v42 : IVec S_ 1 := (fun x v => Host.reduce IntOp.andi x v reducesTo_S40x128_S_d0_1 h_S_) main_v41 main_c_15
  let main_v43 : IVec S_ 1 := andi main_v38 main_v42
  let main_cst_16 : FVec F S_ .f32 := constant S_ .f32 0x00000000#32
  let main_v44 : FVec F S128 .f32 := broadcastInDim S128 ![] bcast_S_S128 main_cst_16
  let main_v45 : IVec S128 1 := cmpf .oge main_arg6 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v43 main_v46
  main_v47

def fn_part1 {F : FTy → Type} [FloatOps F] (main_arg5 : FVec F S128 .f32) (main_arg6 : FVec F S128 .f32) (main_arg7 : FVec F S128x128 .f32) (main_arg8 : FVec F S128x128 .f32) (main_arg9 : FVec F S40x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg6 main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128x128 .f32) (main_arg8 : FVec F S128x128 .f32) (main_arg9 : FVec F S40x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S128x40 : Shape := ⟨2, ![128, 40]⟩
abbrev S50000x40 : Shape := ⟨2, ![50000, 40]⟩
abbrev S2000x40 : Shape := ⟨2, ![2000, 40]⟩

abbrev nBuf : Space → Nat
  | .hbm => 61
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S40x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .bf16⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S128x128, .f32⟩
  | .hbm, ⟨57, _⟩ => ⟨S128x128, .bf16⟩
  | .hbm, ⟨58, _⟩ => ⟨S128x40, .f32⟩
  | .hbm, ⟨59, _⟩ => ⟨S128x40, .bf16⟩
  | .hbm, ⟨60, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S1x128, .f32⟩
  | .local _ .vmem, ⟨4, _⟩ => ⟨S1x128, .f32⟩
  | .local _ .vmem, ⟨5, _⟩ => ⟨S128x128, .bf16⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .bf16⟩
  | .local _ .vmem, ⟨11, _⟩ => ⟨S128x40, .bf16⟩
  | .local _ .vmem, ⟨12, _⟩ => ⟨S2000x40, .f32⟩
  | .local _ .vmem, ⟨13, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S128 : S_.BroadcastsInDim S128 (![] : Fin 0 → Fin S128.rank)
  shapeCasts_S128_S1x128 : S128.ShapeCasts S1x128
  transposes_S128x128_S128x128_1_0 : S128x128.Transposes [1, 0] S128x128
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S40x128_S128x40_1_0 : S40x128.Transposes [1, 0] S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S2000x40_S2000x40_0_0 : ∀ a, (![0, 0] : Fin 2 → Nat) a + S2000x40.size a ≤ S2000x40.size a
  h_S2000x40 : 0 < S2000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .bf16 = 32 ∨ (Rect.block (s := S128x40) S128x40.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S50000x40.size a
  hwx1_3 : ∀ i : grid1.Coords, EltTy.bits .f32 = 32 ∨ (Rect.block (s := S50000x40) S2000x40.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x40 : Shape := ⟨2, ![128, 40]⟩
abbrev S50000x40 : Shape := ⟨2, ![50000, 40]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S40x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S128x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S128x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S128x40, .f32⟩
  | .hbm, ⟨72, _⟩ => ⟨S50000x40, .f32⟩
  | .hbm, ⟨73, _⟩ => ⟨S_, .f32⟩
  | .hbm, ⟨74, _⟩ => ⟨S50000x40, .f32⟩
  | .hbm, ⟨75, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_c_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call2_cst : Ref sig .tc := ⟨.hbm, 68, rfl⟩
abbrev main_call2_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call3_cst : Ref sig .tc := ⟨.hbm, 73, rfl⟩
abbrev main_call3_v0 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S40x128_S128x40_1_0 : S40x128.Transposes [1, 0] S128x40
  bcast_S_S50000x40 : S_.BroadcastsInDim S50000x40 (![] : Fin 0 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Spec.lean ====
/-
  The two dense layers of the graph network, as functions of whole arrays read entry by entry over the
  extended reals.

  A node array `h` has one row per node and 128 columns. A dense layer multiplies each row by a
  128-column weight array (`rowDot`), so an output entry depends on one row of `h` only.
  Layer one applies, between its two products, the batch normalisation's affine map per column `k`:
  with `s k = gamma k / sqrt (var k + eps)` it is `(d - mean k) * s k + beta k` in the plain form and
  `d * s k + (beta k - mean k * s k)` in the form with the scale and the shift computed beforehand.
  Both layers end each product with `max · 0`.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- An `a × b` array of extended reals. -/
abbrev Mat (a b : Nat) : Type := (⟨2, ![a, b]⟩ : Shape).Idx → EReal
/-- A vector of `a` extended reals. -/
abbrev Row (a : Nat) : Type := (⟨1, ![a]⟩ : Shape).Idx → EReal

/-- The variance offset: the binary value of the single-precision literal nearest to 1e-5. -/
def eps : EReal := Ideal.ofBits .f32 0x3727C5AC#32

/-- The batch normalisation's scale of column `k`: `gamma k / sqrt (var k + eps)`. -/
def bnScale (gamma var : Row 128) (k : Fin 128) : EReal :=
  Ideal.div (gamma (ix1 k)) (Ideal.sqrt (var (ix1 k) + eps))

/-- Row `r` of `h` times column `k` of `w`. -/
def rowDot {n p : Nat} (h : Mat n 128) (w : Mat 128 p) (r : Fin n) (k : Fin p) : EReal :=
  ∑ j : Fin 128, h (ix2 r j) * w (ix2 j k)

/-- Layer one with the scale row `sc` and the shift row `sh` given: entry `(r, c)`. -/
def layer1K {n : Nat} (h : Mat n 128) (wa : Mat 128 128) (sc sh : Mat 1 128) (wb : Mat 128 128)
    (r : Fin n) (c : Fin 128) : EReal :=
  max (∑ k : Fin 128, max (rowDot h wa r k * sc (ix2 0 k) + sh (ix2 0 k)) 0 * wb (ix2 k c)) 0

/-- Layer one in the plain form, from the normalisation's four vectors: entry `(r, c)`. -/
def layer1R {n : Nat} (h : Mat n 128) (wa : Mat 128 128) (gamma beta mean var : Row 128) (wb : Mat 128 128)
    (r : Fin n) (c : Fin 128) : EReal :=
  max (∑ k : Fin 128, max ((rowDot h wa r k - mean (ix1 k)) * bnScale gamma var k + beta (ix1 k)) 0 * wb (ix2 k c)) 0

/-- Layer two: entry `(r, c)`, 40 output columns. -/
def layer2 {n : Nat} (h : Mat n 128) (wa : Mat 128 128) (wb : Mat 128 40) (r : Fin n) (c : Fin 40) : EReal :=
  max (∑ k : Fin 128, max (rowDot h wa r k) 0 * wb (ix2 k c)) 0

/-- A row product depends on the one row it reads. -/
theorem rowDot_congr {n n' p : Nat} (h : Mat n 128) (h' : Mat n' 128) (w : Mat 128 p) (r : Fin n) (r' : Fin n')
    (hrow : ∀ j : Fin 128, h (ix2 r j) = h' (ix2 r' j)) (k : Fin p) : rowDot h w r k = rowDot h' w r' k := by
  unfold rowDot
  exact Finset.sum_congr rfl fun j _ => by rw [hrow j]

/-- Layer one (given scale and shift) depends on the one row of `h` it reads. -/
theorem layer1K_congr {n n' : Nat} (h : Mat n 128) (h' : Mat n' 128) (wa : Mat 128 128) (sc sh : Mat 1 128)
    (wb : Mat 128 128) (r : Fin n) (r' : Fin n') (hrow : ∀ j : Fin 128, h (ix2 r j) = h' (ix2 r' j)) (c : Fin 128) :
    layer1K h wa sc sh wb r c = layer1K h' wa sc sh wb r' c := by
  unfold layer1K
  simp only [rowDot_congr h h' wa r r' hrow]

/-- Layer two depends on the one row of `h` it reads. -/
theorem layer2_congr {n n' : Nat} (h : Mat n 128) (h' : Mat n' 128) (wa : Mat 128 128) (wb : Mat 128 40)
    (r : Fin n) (r' : Fin n') (hrow : ∀ j : Fin 128, h (ix2 r j) = h' (ix2 r' j)) (c : Fin 40) :
    layer2 h wa wb r c = layer2 h' wa wb r' c := by
  unfold layer2
  simp only [rowDot_congr h h' wa r r' hrow]

end Cert.Gin

end
-- ==== Proof.KBlock.lean ====
/-
  What one grid point's body computes, entry by entry. A block is 2000 consecutive rows of the node
  array. The body multiplies the block by the first weight array (a matrix product into a zero
  accumulator: entry `(r, k)` is the sum over `j` of `x (r, j) * w (j, k)`), applies per column the scale
  row and the shift row, clamps at zero, multiplies by the second weight array and clamps again; changes
  of float format are the identity on extended reals. So the block's result at `(r, c)` is layer one
  (respectively layer two) of the block's own rows.
-/
import proofs.«118297_j90056874262918_1_alg».proof.Proof.Gen.KernelIdeal.Skeleton
import proofs.«118297_j90056874262918_1_alg».proof.Proof.Spec
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen Cert.Gin

/-! ## The 2000×128 by 128×128 product: its operand indices -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator, at entry `(r, c)`: the sum over the 128 contracted columns. -/
theorem matmulA_apply {φ₁ φ₂ : FTy} (l : FVec Ideal S2000x128 φ₁) (w : FVec Ideal S128x128 φ₂) (r : Fin 2000) (c : Fin 128) :
    matmul dot_S2000x128_S128x128_S2000x128_1_0_0_1_n_n none l w (constant S2000x128 .f32 0x00000000#32) (ix2 r c)
      = ∑ k : Fin 128, l (ix2 r k) * w (ix2 k c) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r c) ((ValueIdx.contrEquiv1 dot_S2000x128_S128x128_S2000x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 r c) ((ValueIdx.contrEquiv1 dot_S2000x128_S128x128_S2000x128_1_0_0_1_n_n 128 rfl rfl).symm k) = ix2 k c := funext fun a => Fin.ext (by
    match a with
    | ⟨0, _⟩ => exact (rhsA_0 _ _).trans hk
    | ⟨1, _⟩ => exact rhsA_1 _ _)
  rw [el, er]

/-! ## The 2000×128 by 128×40 product -/

theorem lhsB_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhsB_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem rhsB_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem rhsB_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The product into a zero accumulator, at entry `(r, c)`, 40 output columns. -/
theorem matmulB_apply {φ₁ φ₂ : FTy} (l : FVec Ideal S2000x128 φ₁) (w : FVec Ideal S128x40 φ₂) (r : Fin 2000) (c : Fin 40) :
    matmul dot_S2000x128_S128x40_S2000x40_1_0_0_1_n_n none l w (constant S2000x40 .f32 0x00000000#32) (ix2 r c)
      = ∑ k : Fin 128, l (ix2 r k) * w (ix2 k c) := by
  simp only [matmul]
  rw [Ideal.matmul_constant_zero_apply, ← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx (ix2 r c) ((ValueIdx.contrEquiv1 dot_S2000x128_S128x40_S2000x40_1_0_0_1_n_n 128 rfl rfl).symm k) = ix2 r k := funext fun a => Fin.ext (by
    match a with
    | ⟨0, _⟩ => exact lhsB_0 _ _
    | ⟨1, _⟩ => exact (lhsB_1 _ _).trans hk)
  have er : dot_S2000x128_S128x40_S2000x40_1_0_0_1_n_n.rhsIdx (ix2 r c) ((ValueIdx.contrEquiv1 dot_S2000x128_S128x40_S2000x40_1_0_0_1_n_n 128 rfl rfl).symm k) = ix2 k c := funext fun a => Fin.ext (by
    match a with
    | ⟨0, _⟩ => exact (rhsB_0 _ _).trans hk
    | ⟨1, _⟩ => exact rhsB_1 _ _)
  rw [el, er]

/-! ## A row broadcast down the block -/

/-- A `1 × 128` row broadcast to the block reads, at `(r, c)`, the row's entry `c`. -/
theorem rowBcast_apply (v : FVec Ideal S1x128 .f32) (r : Fin 2000) (c : Fin 128) :
    broadcastTo S2000x128 v broadcasts_S1x128_S2000x128 (ix2 r c) = v (ix2 0 c) :=
  broadcastTo_apply v broadcasts_S1x128_S2000x128 (ix2 r c) (ix2 0 c) (fun a => match a with
    | ⟨0, _⟩ => by show 0 = if (1 : Nat) = 1 then 0 else r.val; rw [if_pos rfl]
    | ⟨1, _⟩ => by show c.val = if (128 : Nat) = 1 then 0 else c.val; rw [if_neg (by decide)])

/-! ## The two bodies' payloads at an entry -/

/-- Region one's stored block at `(r, c)` is layer one of the loaded blocks. -/
theorem pay0_apply (x0 : Vec Ideal S2000x128 .f32) (x1 : Vec Ideal S128x128 .bf16) (x2 x3 : Vec Ideal S1x128 .f32)
    (x4 : Vec Ideal S128x128 .bf16) (r : Fin 2000) (c : Fin 128) :
    k0_pay1 x0 x1 x2 x3 x4 (ix2 r c) = layer1K x0 x1 x2 x3 x4 r c := by
  unfold k0_pay1 layer1K rowDot
  rw [maximumf_apply, matmulA_apply, broadcast_apply]
  simp only [truncf_apply, maximumf_apply, addf_apply, mulf_apply, matmulA_apply, rowBcast_apply, broadcast_apply,
    shapeCast_self, Scalar.ofBits, Ideal.ofBits_def, Ideal.ofBits_zero_f32]

/-- Region two's stored block at `(r, c)` is layer two of the loaded blocks. -/
theorem pay1_apply (x0 : Vec Ideal S2000x128 .f32) (x1 : Vec Ideal S128x128 .bf16) (x2 : Vec Ideal S128x40 .bf16)
    (r : Fin 2000) (c : Fin 40) :
    k1_pay1 x0 x1 x2 (ix2 r c) = layer2 x0 x1 x2 r c := by
  unfold k1_pay1 layer2 rowDot
  rw [maximumf_apply, matmulB_apply, broadcast_apply]
  simp only [truncf_apply, maximumf_apply, matmulA_apply, broadcast_apply,
    shapeCast_self, Scalar.ofBits, Ideal.ofBits_def, Ideal.ofBits_zero_f32]

end Cert.KernelIdeal.Block

end
-- ==== Proof.KVal0.lean ====
/-
  What the first kernel region leaves in its output array, for ANY contents `V` the region is entered with.
  The grid has 25 points; point `t` reads rows `2000 t … 2000 t + 1999` of the node array and the four small
  arrays whole (their one block is the whole array), and writes back rows `2000 t …` of the output. What it
  writes is layer one of the block it read, and layer one of a block's row is layer one of the whole array at
  that row, so every point writes back its block of ONE whole-array function; the 25 blocks tile the 50000
  rows, so the output array ends holding that function.
-/
import proofs.«118297_j90056874262918_1_alg».proof.Proof.Gen.KernelIdeal.Frame
import proofs.«118297_j90056874262918_1_alg».proof.Proof.KBlock
import Idealize.ShloMosaic.Lib.Pipeline.Value
import Idealize.ShloMosaic.Lib.ValueIdx

set_option maxRecDepth 16384

noncomputable section

namespace Cert.KernelIdeal.Val0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Block Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node windows sit at block `t`, every other window at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array function region one leaves in its output. -/
def G (c : Dev nD) : Buf (Elt Ideal) ((c : Thread nD τ).loc main_v27) :=
  fun i => layer1K (V c main_v14) (V c main_v24) (V c main_v19) (V c main_v22) (V c main_v26) (i 0) (i 1)

/-- The body's stored block at `j`, when the loaded node block's row `j 0` is row `i 0` of the node array `H` and
    `j`, `i` name the same column: layer one of the whole array at `i`. -/
theorem blk_apply (H : Mat 50000 128) (x0 : Vec Ideal S2000x128 .f32) (x1 : Vec Ideal S128x128 .bf16)
    (x2 x3 : Vec Ideal S1x128 .f32) (x4 : Vec Ideal S128x128 .bf16) (j : S2000x128.Idx) (i : S50000x128.Idx)
    (hrow : ∀ k : Fin 128, x0 (ix2 (j 0) k) = H (ix2 (i 0) k)) (hcol : (i 1).val = (j 1).val) :
    k0_pay1 x0 x1 x2 x3 x4 j = layer1K H x1 x2 x3 x4 (i 0) (i 1) := by
  have hj : j = ix2 (n0 := 2000) (n1 := 128) (j 0) (j 1) := eq_ix2 j
  exact (congrArg (k0_pay1 x0 x1 x2 x3 x4) hj).trans
    ((pay0_apply x0 x1 x2 x3 x4 (j 0) (j 1)).trans
      ((layer1K_congr x0 H x1 x2 x3 x4 (j 0) (i 0) hrow (j 1)).trans
        (congrArg (layer1K H x1 x2 x3 x4 (i 0)) (Fin.ext hcol.symm))))

/-- A window whose one block is its whole array holds that array at every point. -/
theorem iblk_1 (c : Dev nD) (t : Fin cfg0.N) : iblk0 V c 1 t = V c main_v24 := by
  funext y
  show V c main_v24 (((cfg0.win 1).blk t).view.emb y) = V c main_v24 y
  obtain ⟨-, -, e0, e1, -⟩ := idx_facts t
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega
theorem iblk_2 (c : Dev nD) (t : Fin cfg0.N) : iblk0 V c 2 t = V c main_v19 := by
  funext y
  show V c main_v19 (((cfg0.win 2).blk t).view.emb y) = V c main_v19 y
  obtain ⟨-, -, -, -, e0, e1, -⟩ := idx_facts t
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem iblk_3 (c : Dev nD) (t : Fin cfg0.N) : iblk0 V c 3 t = V c main_v22 := by
  funext y
  show V c main_v22 (((cfg0.win 3).blk t).view.emb y) = V c main_v22 y
  obtain ⟨-, -, -, -, -, -, e0, e1, -⟩ := idx_facts t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem iblk_4 (c : Dev nD) (t : Fin cfg0.N) : iblk0 V c 4 t = V c main_v26 := by
  funext y
  show V c main_v26 (((cfg0.win 4).blk t).view.emb y) = V c main_v26 y
  obtain ⟨-, -, -, -, -, -, -, -, e0, e1, -⟩ := idx_facts t
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- WHAT POINT `t` WRITES BACK is block `t` of layer one of the arrays as the region finds them. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [iblk_1, iblk_2, iblk_3, iblk_4]
  obtain ⟨e00, e01, -, -, -, -, -, -, -, -, e50, e51⟩ := idx_facts t
  funext j
  show k0_pay1 (iblk0 V c 0 t) (V c main_v24) (V c main_v19) (V c main_v22) (V c main_v26) j
    = G V c (((cfg0.win 5).blk t).view.emb j)
  refine (blk_apply (V c main_v14) _ _ _ _ _ j (((cfg0.win 5).blk t).view.emb j) (fun k => ?_) ?_).trans rfl
  · show V c main_v14 (((cfg0.win 0).blk t).view.emb (ix2 (j 0) k)) = V c main_v14 (ix2 ((((cfg0.win 5).blk t).view.emb j) 0) k)
    refine congrArg _ (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  · show win0_5.index t (1 : Fin 2) * 128 + 1 * (j 1).val = (j 1).val
    omega

/-- An index of the node array is in point `t`'s output block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v27).slice (win0_5.rect t)).set ↔ _
  rw [View.set_slice_whole, Rect.mem_set_unit]
  exact Iff.rfl

/-- The 25 output blocks of 2000 rows tile the 50000 rows: row `i 0` is in block `i 0 / 2000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < cfg0.N := by show (i 0).val / 2000 < grid0.N; rw [N_0]; omega
  refine ⟨⟨(i 0).val / 2000, ht⟩, flush0_5 _, ?_⟩
  rw [mem_blk]
  obtain ⟨-, -, -, -, -, -, -, -, -, -, e50, e51⟩ := idx_facts ⟨(i 0).val / 2000, ht⟩
  have e50' : win0_5.index ⟨(i 0).val / 2000, ht⟩ (0 : Fin 2) = (i 0).val / 2000 := e50
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000; omega
  | ⟨1, _⟩ => show win0_5.index ⟨(i 0).val / 2000, ht⟩ (1 : Fin 2) * 128 ≤ (i 1).val ∧ (i 1).val < win0_5.index ⟨(i 0).val / 2000, ht⟩ (1 : Fin 2) * 128 + 128; omega

/-- THE ARRAY region one leaves: layer one of the arrays it found, entry by entry. -/
theorem final (c : Dev nD) : (dat0 V c).arrAt 5 cfg0.N = G V c :=
  (dat0 V c).arrAt_eq_of_cover 5 (G V c) (fun t _ => flushed_eq V c t) (cover)

end Cert.KernelIdeal.Val0

end
-- ==== Proof.KVal1.lean ====
/-
  What the second kernel region leaves in its output array, for ANY contents `V` it is entered with: as for
  the first region, point `t` of 25 reads rows `2000 t …` of the aggregated node array and the two weight
  arrays whole, and writes back rows `2000 t …` of the 40-column output, which is layer two of the rows it
  read; the blocks tile the 50000 rows, so the output ends holding layer two of the whole arrays.
-/
import proofs.«118297_j90056874262918_1_alg».proof.Proof.Gen.KernelIdeal.Frame
import proofs.«118297_j90056874262918_1_alg».proof.Proof.KBlock
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Block Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node windows sit at block `t`, the weight windows at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array function region two leaves in its output. -/
def G (c : Dev nD) : Buf (Elt Ideal) ((c : Thread nD τ).loc main_v43) :=
  fun i => layer2 (V c main_v38) (V c main_v40) (V c main_v42) (i 0) (i 1)

/-- The body's stored block at `j`, when the loaded node block's row `j 0` is row `i 0` of the node array `H` and
    `j`, `i` name the same column: layer two of the whole array at `i`. -/
theorem blk_apply (H : Mat 50000 128) (x0 : Vec Ideal S2000x128 .f32) (x1 : Vec Ideal S128x128 .bf16)
    (x2 : Vec Ideal S128x40 .bf16) (j : S2000x40.Idx) (i : S50000x40.Idx)
    (hrow : ∀ k : Fin 128, x0 (ix2 (j 0) k) = H (ix2 (i 0) k)) (hcol : (i 1).val = (j 1).val) :
    k1_pay1 x0 x1 x2 j = layer2 H x1 x2 (i 0) (i 1) := by
  have hj : j = ix2 (n0 := 2000) (n1 := 40) (j 0) (j 1) := eq_ix2 j
  exact (congrArg (k1_pay1 x0 x1 x2) hj).trans
    ((pay1_apply x0 x1 x2 (j 0) (j 1)).trans
      ((layer2_congr x0 H x1 x2 (j 0) (i 0) hrow (j 1)).trans
        (congrArg (layer2 H x1 x2 (i 0)) (Fin.ext hcol.symm))))

/-- A window whose one block is its whole array holds that array at every point. -/
theorem iblk_1 (c : Dev nD) (t : Fin cfg1.N) : iblk1 V c 1 t = V c main_v40 := by
  funext y
  show V c main_v40 (((cfg1.win 1).blk t).view.emb y) = V c main_v40 y
  obtain ⟨-, -, e0, e1, -⟩ := idx_facts t
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega
theorem iblk_2 (c : Dev nD) (t : Fin cfg1.N) : iblk1 V c 2 t = V c main_v42 := by
  funext y
  show V c main_v42 (((cfg1.win 2).blk t).view.emb y) = V c main_v42 y
  obtain ⟨-, -, -, -, e0, e1, -⟩ := idx_facts t
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 40 + 1 * (y 1).val = (y 1).val; omega

/-- WHAT POINT `t` WRITES BACK is block `t` of layer two of the arrays as the region finds them. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz, View.ld_unit_zero (S := S128x40) hz]
  rw [iblk_1, iblk_2]
  obtain ⟨e00, e01, -, -, -, -, e30, e31⟩ := idx_facts t
  funext j
  show k1_pay1 (iblk1 V c 0 t) (V c main_v40) (V c main_v42) j
    = G V c (((cfg1.win 3).blk t).view.emb j)
  refine (blk_apply (V c main_v38) _ _ _ j (((cfg1.win 3).blk t).view.emb j) (fun k => ?_) ?_).trans rfl
  · show V c main_v38 (((cfg1.win 0).blk t).view.emb (ix2 (j 0) k)) = V c main_v38 (ix2 ((((cfg1.win 3).blk t).view.emb j) 0) k)
    refine congrArg _ (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  · show win1_3.index t (1 : Fin 2) * 40 + 1 * (j 1).val = (j 1).val
    omega

/-- An index of the output array is in point `t`'s output block iff each coordinate is in the block's range on its axis. -/
theorem mem_blk (t : Fin cfg1.N) (i : S50000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v43).slice (win1_3.rect t)).set ↔ _
  rw [View.set_slice_whole, Rect.mem_set_unit]
  exact Iff.rfl

/-- The 25 output blocks of 2000 rows tile the 50000 rows: row `i 0` is in block `i 0 / 2000`. -/
theorem cover (i : S50000x40.Idx) :
    ∃ t : Fin cfg1.N, (cfg1.win 3).flush t = true ∧ i ∈ ((cfg1.win 3).blk t).view.set := by
  have hi0 : (i 0).val < 50000 := (i 0).isLt
  have hi1 : (i 1).val < 40 := (i 1).isLt
  have ht : (i 0).val / 2000 < cfg1.N := by show (i 0).val / 2000 < grid1.N; rw [N_1]; omega
  refine ⟨⟨(i 0).val / 2000, ht⟩, flush1_3 _, ?_⟩
  rw [mem_blk]
  obtain ⟨-, -, -, -, -, -, e30, e31⟩ := idx_facts ⟨(i 0).val / 2000, ht⟩
  have e30' : win1_3.index ⟨(i 0).val / 2000, ht⟩ (0 : Fin 2) = (i 0).val / 2000 := e30
  intro a
  match a with
  | ⟨0, _⟩ => show win1_3.index ⟨(i 0).val / 2000, ht⟩ (0 : Fin 2) * 2000 ≤ (i 0).val ∧ (i 0).val < win1_3.index ⟨(i 0).val / 2000, ht⟩ (0 : Fin 2) * 2000 + 2000; omega
  | ⟨1, _⟩ => show win1_3.index ⟨(i 0).val / 2000, ht⟩ (1 : Fin 2) * 40 ≤ (i 1).val ∧ (i 1).val < win1_3.index ⟨(i 0).val / 2000, ht⟩ (1 : Fin 2) * 40 + 40; omega

/-- THE ARRAY region two leaves: layer two of the arrays it found, entry by entry. -/
theorem final (c : Dev nD) : (dat1 V c).arrAt 3 cfg1.N = G V c :=
  (dat1 V c).arrAt_eq_of_cover 3 (G V c) (fun t _ => flushed_eq V c t) (cover)

end Cert.KernelIdeal.Val1

end
-- ==== Proof.Agg.lean ====
/-
  The host-side operations both programs share, as named functions of arrays: the two index vectors cut
  out of the edge list, the neighbourhood aggregation `h ↦ h + Σ_{edges into a node} h[source]`, and the
  transposes of the weight arrays. The aggregation gathers the source rows (a negative source index
  wrapped once by the number of nodes, as the indexing `h[src]` does), adds them into a zero array at the
  destination rows, and adds `h`. Nothing here is opened by the certificate: both programs apply the very
  same function, so it is carried as one opaque term.
-/
import proofs.«118297_j90056874262918_1_alg».proof.Proof.Gen.ReferenceIdeal
import proofs.«118297_j90056874262918_1_alg».proof.Proof.Spec

noncomputable section

namespace Cert.Gin

open Idealize.ShloMosaic Cert.ReferenceIdeal Cert.ReferenceIdeal.Gen

/-- Row 0 of the edge list: the source node of every edge. -/
def srcOf (e : IVec S2x800000 32) : IVec S800000 32 :=
  shapeCast _ (extractStridedSlice S1x800000 ![0, 0] e slices_S2x800000_S1x800000_0_0) shapeCasts_S1x800000_S800000

/-- Row 1 of the edge list: the destination node of every edge. -/
def dstOf (e : IVec S2x800000 32) : IVec S800000 32 :=
  shapeCast _ (extractStridedSlice S1x800000 ![1, 0] e slices_S2x800000_S1x800000_1_0) shapeCasts_S1x800000_S800000

/-- The neighbourhood aggregation: `h` plus, at every node, the sum of the rows of `h` at the sources of the
    edges that end there. -/
def aggr (h : FVec Ideal S50000x128 .f32) (src dst : IVec S800000 32) : FVec Ideal S50000x128 .f32 :=
  addf h (Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))))

/-- A 128 × 128 weight array transposed. -/
def tr128 (w : FVec Ideal S128x128 .f32) : FVec Ideal S128x128 .f32 :=
  transpose S128x128 [1, 0] w transposes_S128x128_S128x128_1_0

/-- The 40 × 128 weight array transposed. -/
def tr40 (w : FVec Ideal S40x128 .f32) : FVec Ideal S128x40 .f32 :=
  transpose S128x40 [1, 0] w transposes_S40x128_S128x40_1_0

/-- Layer one in the plain form as an array over the nodes. -/
def layer1RArr (h : FVec Ideal S50000x128 .f32) (wa : FVec Ideal S128x128 .f32) (gamma beta mean var : FVec Ideal S128 .f32)
    (wb : FVec Ideal S128x128 .f32) : FVec Ideal S50000x128 .f32 :=
  fun i => layer1R h wa gamma beta mean var wb (i 0) (i 1)

/-- Layer one with scale and shift rows given, as an array over the nodes. -/
def layer1KArr (h : FVec Ideal S50000x128 .f32) (wa : FVec Ideal S128x128 .f32) (sc sh : FVec Ideal S1x128 .f32)
    (wb : FVec Ideal S128x128 .f32) : FVec Ideal S50000x128 .f32 :=
  fun i => layer1K h wa sc sh wb (i 0) (i 1)

/-- Layer two as an array over the nodes. -/
def layer2Arr (h : FVec Ideal S50000x128 .f32) (wa : FVec Ideal S128x128 .f32) (wb : FVec Ideal S128x40 .f32) :
    FVec Ideal S50000x40 .f32 :=
  fun i => layer2 h wa wb (i 0) (i 1)

end Cert.Gin

end
-- ==== Proof.KHost.lean ====
/-
  The arrays the two kernel regions are entered with, as functions of the launch arrays. Before the first
  region the host computes the aggregate of the node features, the transposed weight arrays (their change
  of float format is the identity on extended reals), the scale row `gamma / sqrt (var + eps)` and the shift
  row `beta - mean * scale`, each reshaped from 128 entries to a 1 × 128 row. Between the regions it
  aggregates the first region's output over the same edges and transposes the second layer's weights.
-/
import proofs.«118297_j90056874262918_1_alg».proof.Proof.Gen.KernelIdeal.Frame
import proofs.«118297_j90056874262918_1_alg».proof.Proof.Agg
import Idealize.ShloMosaic.Lib.StableHlo.Run
import Idealize.ShloMosaic.Lib.Pipeline.Value
import Idealize.ShloMosaic.Lib.ValueIdx

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen Cert.Gin

/-- The scale vector `gamma / sqrt (var + eps)`, 128 entries. -/
def scaleVec (g v : FVec Ideal S128 .f32) : FVec Ideal S128 .f32 :=
  Host.divf g (Host.sqrt (addf v (broadcastInDim S128 ![] bcast_S_S128 (constant S_ .f32 0x3727C5AC#32))))

/-- Entry `k` of the scale vector is the batch normalisation's scale of column `k`. -/
theorem scaleVec_apply (g v : FVec Ideal S128 .f32) (k : Fin 128) : scaleVec g v (ix1 k) = bnScale g v k := by
  unfold scaleVec bnScale eps
  show Ideal.div (g (ix1 k)) (Ideal.sqrt (v (ix1 k) + broadcastInDim S128 ![] bcast_S_S128 (constant (F := Ideal) S_ .f32 0x3727C5AC#32) (ix1 k))) = _
  rw [broadcastInDim_apply _ bcast_S_S128 _ (ix1 k) (fun a => a.elim0) (fun a => a.elim0)]
  rfl

/-- A 128-vector reshaped to a 1 × 128 row reads, at `(0, k)`, the vector's entry `k`. -/
theorem rowCast_apply (x : FVec Ideal S128 .f32) (k : Fin 128) :
    shapeCast S1x128 x shapeCasts_S128_S1x128 (ix2 0 k) = x (ix1 k) :=
  shapeCast_apply x shapeCasts_S128_S1x128 (ix2 0 k) (ix1 k)
    (by rewrite [Shape.rowMajor_val_two, Shape.rowMajor_val_one]; show k.val = 0 * 128 + k.val; omega)

variable (m : (ℓ : Loc nD τ sig) → Buf (Elt Ideal) ℓ) (ρ : Dev nD → PrngReg)

/-! ## Region one's entry -/

set_option maxHeartbeats 1000000 in
/-- The node window's array: the aggregate of the node features over the edge list. -/
theorem v14_eq (c : Dev nD) :
    V1 m ρ c main_v14 = aggr (m ((c.tc : Thread nD τ).loc main_arg0)) (srcOf (m ((c.tc : Thread nD τ).loc main_arg1))) (dstOf (m ((c.tc : Thread nD τ).loc main_arg1))) := by
  dsimp only [V1, W1, hostOps0]
  after_results
  rfl

set_option maxHeartbeats 1000000 in
/-- The first weight window's array: the first weight array transposed. -/
theorem v24_eq (c : Dev nD) : V1 m ρ c main_v24 = tr128 (m ((c.tc : Thread nD τ).loc main_arg2)) := by
  dsimp only [V1, W1, hostOps0]
  after_results
  rfl

set_option maxHeartbeats 1000000 in
/-- The second weight window's array: the second weight array transposed. -/
theorem v26_eq (c : Dev nD) : V1 m ρ c main_v26 = tr128 (m ((c.tc : Thread nD τ).loc main_arg7)) := by
  dsimp only [V1, W1, hostOps0]
  after_results
  rfl

set_option maxHeartbeats 1000000 in
/-- The scale row: the scale vector as a 1 × 128 row. -/
theorem v19_eq (c : Dev nD) :
    V1 m ρ c main_v19 = shapeCast S1x128 (scaleVec (m ((c.tc : Thread nD τ).loc main_arg3)) (m ((c.tc : Thread nD τ).loc main_arg6))) shapeCasts_S128_S1x128 := by
  dsimp only [V1, W1, hostOps0]
  after_results
  rfl

set_option maxHeartbeats 1000000 in
/-- The shift row: `beta - mean * scale` as a 1 × 128 row. -/
theorem v22_eq (c : Dev nD) :
    V1 m ρ c main_v22 = shapeCast S1x128 (subf (m ((c.tc : Thread nD τ).loc main_arg4))
      (mulf (m ((c.tc : Thread nD τ).loc main_arg5)) (scaleVec (m ((c.tc : Thread nD τ).loc main_arg3)) (m ((c.tc : Thread nD τ).loc main_arg6))))) shapeCasts_S128_S1x128 := by
  dsimp only [V1, W1, hostOps0]
  after_results
  rfl

/-- The scale row at `(0, k)`. -/
theorem v19_apply (c : Dev nD) (k : Fin 128) :
    V1 m ρ c main_v19 (ix2 0 k) = bnScale (m ((c.tc : Thread nD τ).loc main_arg3)) (m ((c.tc : Thread nD τ).loc main_arg6)) k := by
  rw [v19_eq]
  exact (rowCast_apply _ k).trans (scaleVec_apply _ _ k)

/-- The normalisation's four vectors at launch, as vectors of extended reals. -/
abbrev gammaV (c : Dev nD) : Row 128 := m ((c.tc : Thread nD τ).loc main_arg3)
abbrev betaV (c : Dev nD) : Row 128 := m ((c.tc : Thread nD τ).loc main_arg4)
abbrev meanV (c : Dev nD) : Row 128 := m ((c.tc : Thread nD τ).loc main_arg5)
abbrev varV (c : Dev nD) : Row 128 := m ((c.tc : Thread nD τ).loc main_arg6)

/-- The shift row at `(0, k)`. -/
theorem v22_apply (c : Dev nD) (k : Fin 128) :
    V1 m ρ c main_v22 (ix2 0 k) = betaV m c (ix1 k) - meanV m c (ix1 k) * bnScale (gammaV m c) (varV m c) k := by
  rw [v22_eq]
  refine (rowCast_apply _ k).trans ?_
  show betaV m c (ix1 k) - meanV m c (ix1 k) * scaleVec (gammaV m c) (varV m c) (ix1 k) = _
  rw [scaleVec_apply]

/-! ## Between the regions -/

set_option maxHeartbeats 1000000 in
/-- The source indices are still what the first stretch cut out of the edge list. -/
theorem w2_v1 (c : Dev nD) : W2 m ρ c (Proc.devRef .tc main_v1) = srcOf (m ((c.tc : Thread nD τ).loc main_arg1)) :=
  (W2_of_ne m ρ c main_v1 (by decide)).trans (by
    dsimp only [W1, hostOps0]
    after_results
    rfl)

set_option maxHeartbeats 1000000 in
/-- The destination indices likewise. -/
theorem w2_v3 (c : Dev nD) : W2 m ρ c (Proc.devRef .tc main_v3) = dstOf (m ((c.tc : Thread nD τ).loc main_arg1)) :=
  (W2_of_ne m ρ c main_v3 (by decide)).trans (by
    dsimp only [W1, hostOps0]
    after_results
    rfl)

set_option maxHeartbeats 1000000 in
theorem w2_arg8 (c : Dev nD) : W2 m ρ c (Proc.devRef .tc main_arg8) = m ((c.tc : Thread nD τ).loc main_arg8) :=
  (W2_of_ne m ρ c main_arg8 (by decide)).trans (by
    dsimp only [W1, hostOps0]
    after_results)

set_option maxHeartbeats 1000000 in
theorem w2_arg9 (c : Dev nD) : W2 m ρ c (Proc.devRef .tc main_arg9) = m ((c.tc : Thread nD τ).loc main_arg9) :=
  (W2_of_ne m ρ c main_arg9 (by decide)).trans (by
    dsimp only [W1, hostOps0]
    after_results)

/-! ## Region two's entry -/

set_option maxHeartbeats 1000000 in
/-- The node window's array: the aggregate of the first region's output over the same edges. -/
theorem v38_eq (c : Dev nD) :
    V3 m ρ c main_v38 = aggr (W2 m ρ c (Proc.devRef .tc main_v27)) (W2 m ρ c (Proc.devRef .tc main_v1)) (W2 m ρ c (Proc.devRef .tc main_v3)) := by
  dsimp only [V3, W3, hostOps1]
  after_results
  rfl

set_option maxHeartbeats 1000000 in
theorem v40_eq (c : Dev nD) : V3 m ρ c main_v40 = tr128 (W2 m ρ c (Proc.devRef .tc main_arg8)) := by
  dsimp only [V3, W3, hostOps1]
  after_results
  rfl

set_option maxHeartbeats 1000000 in
theorem v42_eq (c : Dev nD) : V3 m ρ c main_v42 = tr40 (W2 m ρ c (Proc.devRef .tc main_arg9)) := by
  dsimp only [V3, W3, hostOps1]
  after_results
  rfl

end Cert.KernelIdeal.Host

end
-- ==== Proof.Law.lean ====
/-
  Why the two forms of layer one agree. For real `m`, `s`, `b` and ANY extended real `d`,
  `(d - m) * s + b = d * s + (b - m * s)`: on a real `d` this is distributivity, and an infinite `d`
  is sent by the real factor `s` to the same infinity (or to zero) on both sides, the real summands
  changing nothing. The scale `s k = gamma k / sqrt (var k + eps)` is real when `gamma k` is real and
  `var k` is a non-negative real, `eps` being a positive real.
-/
import proofs.«118297_j90056874262918_1_alg».proof.Proof.Spec

noncomputable section

namespace Cert.Gin

open Idealize.ShloMosaic Idealize.ShloMosaic.ValueIdx

/-- `(d - m) * s + b = d * s + (b - m * s)` for real `m`, `s`, `b` and any extended real `d`.
    A real `d` is distributivity in the reals. An infinite `d` stays the same infinity after a real is
    taken off it; times `s` it is that infinity, the opposite one, or zero as `s` is positive, negative
    or zero, on both sides alike, and adding a real to an infinity changes nothing. -/
private theorem affine_shift (d : EReal) (m s b : ℝ) :
    (d - (m : EReal)) * (s : EReal) + (b : EReal)
      = d * (s : EReal) + ((b : EReal) - (m : EReal) * (s : EReal)) := by
  have hreal : ((b : EReal) - (m : EReal) * (s : EReal)) = ((b - m * s : ℝ) : EReal) := by
    rw [EReal.coe_sub, EReal.coe_mul]
  rw [hreal]
  induction d using EReal.rec with
  | bot =>
    rw [EReal.bot_sub]
    rcases lt_trichotomy s 0 with hs | hs | hs
    · rw [EReal.bot_mul_coe_of_neg hs, EReal.top_add_coe, EReal.top_add_coe]
    · subst hs; simp
    · rw [EReal.bot_mul_coe_of_pos hs, EReal.bot_add, EReal.bot_add]
  | coe x =>
    rw [← EReal.coe_sub, ← EReal.coe_mul, ← EReal.coe_add, ← EReal.coe_mul, ← EReal.coe_add]
    congr 1; ring
  | top =>
    rw [EReal.top_sub_coe]
    rcases lt_trichotomy s 0 with hs | hs | hs
    · rw [EReal.top_mul_coe_of_neg hs, EReal.bot_add, EReal.bot_add]
    · subst hs; simp
    · rw [EReal.top_mul_coe_of_pos hs, EReal.top_add_coe, EReal.top_add_coe]

/-- The variance offset is a positive real: sign bit 0, exponent field 110, fraction field 2606508, so
    `(2^23 + 2606508) * 2^(110 - 127 - 23) = 10995116 / 2^40`. -/
private theorem eps_real : ∃ e : ℝ, 0 < e ∧ eps = (e : EReal) := by
  refine ⟨10995116 * (2 ^ 40 : ℝ)⁻¹, by positivity, ?_⟩
  simp [eps, Ideal.ofBits, Ideal.ieee]

/-- The scale of column `k` is real: `var k + eps` is a positive real, so its square root is a positive
    real, and dividing a real by a nonzero real gives a real. -/
private theorem bnScale_real (gamma var : Row 128) (k : Fin 128)
    (hg : ∃ x : ℝ, gamma (ix1 k) = (x : EReal)) (hv : ∃ x : ℝ, 0 ≤ x ∧ var (ix1 k) = (x : EReal)) :
    ∃ s : ℝ, bnScale gamma var k = (s : EReal) := by
  obtain ⟨g, hg⟩ := hg
  obtain ⟨v, hv0, hv⟩ := hv
  obtain ⟨e, he0, he⟩ := eps_real
  have hpos : 0 < v + e := by linarith
  have hsq : 0 < Real.sqrt (v + e) := Real.sqrt_pos.2 hpos
  refine ⟨g * (1 / Real.sqrt (v + e)), ?_⟩
  unfold bnScale
  rw [hg, hv, he, ← EReal.coe_add, Ideal.sqrt_coe, if_neg (not_lt.2 hpos.le), Ideal.div_coe hsq.ne',
    ← EReal.coe_mul]

/-- Layer one with the scale and shift rows computed beforehand is layer one in the plain form, when the
    normalisation's vectors are real and the variance non-negative. -/
theorem layer1K_eq_layer1R {n : Nat} (h : Mat n 128) (wa : Mat 128 128) (sc sh : Mat 1 128)
    (gamma beta mean var : Row 128) (wb : Mat 128 128)
    (hsc : ∀ k : Fin 128, sc (ix2 0 k) = bnScale gamma var k)
    (hsh : ∀ k : Fin 128, sh (ix2 0 k) = beta (ix1 k) - mean (ix1 k) * bnScale gamma var k)
    (hg : ∀ k : Fin 128, ∃ x : ℝ, gamma (ix1 k) = (x : EReal))
    (hb : ∀ k : Fin 128, ∃ x : ℝ, beta (ix1 k) = (x : EReal))
    (hm : ∀ k : Fin 128, ∃ x : ℝ, mean (ix1 k) = (x : EReal))
    (hv : ∀ k : Fin 128, ∃ x : ℝ, 0 ≤ x ∧ var (ix1 k) = (x : EReal))
    (r : Fin n) (c : Fin 128) :
    layer1K h wa sc sh wb r c = layer1R h wa gamma beta mean var wb r c := by
  unfold layer1K layer1R
  refine congrArg (fun t => max t 0) (Finset.sum_congr rfl fun k _ => ?_)
  obtain ⟨s, hs⟩ := bnScale_real gamma var k (hg k) (hv k)
  obtain ⟨b, hb⟩ := hb k
  obtain ⟨m, hm⟩ := hm k
  rw [hsc k, hsh k, hs, hb, hm, affine_shift]

end Cert.Gin

end
-- ==== Proof.PreFacts.lean ====
/-
  What the precondition says of the batch normalisation's four vectors: every entry of the scale factor
  `gamma`, the offset `beta` and the running mean is a real number (its absolute value is below +∞), and
  every entry of the running variance is a non-negative real.
-/
import proofs.«118297_j90056874262918_1_alg».proof.Proof.Gen.Pre_finite_inputs
import Idealize.ShloMosaic.Lib.ReduceAll
import Idealize.ShloMosaic.Lib.ValueIdx
import Idealize.ShloMosaic.PureOps.Ideal.Laws

noncomputable section

namespace Cert.Gin

open Idealize.ShloMosaic Idealize.ShloMosaic.ValueIdx Cert.Pre_finite_inputs Cert.Pre_finite_inputs.Gen

/-- The all-axes reductions end in the shape with one index. -/
private instance : Subsingleton S_.Idx := ⟨fun a b => funext fun d => d.elim0⟩

/-- The pattern `0x7F800000` is `+∞`. -/
private theorem inf_bits : Ideal.ofBits .f32 0x7F800000#32 = (⊤ : EReal) := by
  simp [Ideal.ofBits, Ideal.ieee]

/-- An extended real whose absolute value is below `+∞` is a real: `|⊥| = |⊤| = ⊤`. -/
private theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- `x ≥ 0` read back: the pattern `0` is the real zero. -/
private theorem nonneg_of_ge_zero (x : EReal)
    (h : Ideal.cmp .oge x (Ideal.ofBits .f32 0x00000000#32) = 1#1) : 0 ≤ x := by
  rw [Ideal.ofBits_zero_f32] at h
  by_contra hx
  simp [Ideal.cmp, hx] at h

/-- From the precondition at the ideal values: `gamma` (argument 3), `beta` (4) and the mean (5) are real
    entry by entry, the variance (6) real and non-negative. -/
theorem reals_of_pre (x0 : FVec Ideal S50000x128 .f32) (x1 : IVec S2x800000 32) (x2 : FVec Ideal S128x128 .f32)
    (x3 x4 x5 x6 : FVec Ideal S128 .f32) (x7 x8 : FVec Ideal S128x128 .f32) (x9 : FVec Ideal S40x128 .f32)
    (h : Cert.Pre_finite_inputs.fn (F := Ideal) x0 x1 x2 x3 x4 x5 x6 x7 x8 x9 = fun _ => 1#1) :
    (∀ k : Fin 128, ∃ x : ℝ, x3 (ix1 k) = (x : EReal))
    ∧ (∀ k : Fin 128, ∃ x : ℝ, x4 (ix1 k) = (x : EReal))
    ∧ (∀ k : Fin 128, ∃ x : ℝ, x5 (ix1 k) = (x : EReal))
    ∧ (∀ k : Fin 128, ∃ x : ℝ, 0 ≤ x ∧ x6 (ix1 k) = (x : EReal)) := by
  have h0 := congrFun h ValueIdx.ix0
  dsimp only [fn, fn_part1, fn_part2] at h0
  -- the conjunction, outermost conjunct first: variance ≥ 0, then the nine finiteness tests from the last
  obtain ⟨h1, e46⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, e27⟩ := IntOp.andi_eq_one.1 h4
  obtain ⟨h6, e22⟩ := IntOp.andi_eq_one.1 h5
  obtain ⟨h7, e17⟩ := IntOp.andi_eq_one.1 h6
  obtain ⟨-, e12⟩ := IntOp.andi_eq_one.1 h7
  clear h0 h1 h2 h3 h4 h5 h6 h7
  refine ⟨fun k => ?_, fun k => ?_, fun k => ?_, fun k => ?_⟩
  · exact real_of_abs_lt_inf _ (Host.reduce_andi_all _ _ _ _ _ e12 (ix1 k))
  · exact real_of_abs_lt_inf _ (Host.reduce_andi_all _ _ _ _ _ e17 (ix1 k))
  · exact real_of_abs_lt_inf _ (Host.reduce_andi_all _ _ _ _ _ e22 (ix1 k))
  · obtain ⟨v, hv⟩ := real_of_abs_lt_inf _ (Host.reduce_andi_all _ _ _ _ _ e27 (ix1 k))
    have hge : 0 ≤ x6 (ix1 k) := nonneg_of_ge_zero _ (Host.reduce_andi_all _ _ _ _ _ e46 (ix1 k))
    rw [hv] at hge
    exact ⟨v, EReal.coe_nonneg.1 hge, hv⟩

end Cert.Gin

end
-- ==== Proof.RefRead.lean ====
/-
  The reference's result, read off its run one operation at a time, is the composition
  aggregate → layer one (plain form) → aggregate → layer two of the argument arrays: each matrix product
  is a sum over the 128 hidden columns, each `relu` a `max · 0`, the normalisation's vectors are read
  through their broadcasts along the node axis, and the two gathers and scatters stay inside the shared
  aggregation.
-/
import proofs.«118297_j90056874262918_1_alg».proof.Proof.Gen.ReferenceIdeal.Read
import proofs.«118297_j90056874262918_1_alg».proof.Proof.Agg

noncomputable section

namespace Cert.Gin

open Idealize.ShloMosaic Idealize.ShloMosaic.ValueIdx Cert.ReferenceIdeal Cert.ReferenceIdeal.Gen Cert.ReferenceIdeal.Read

/-! ### The stages both programs share, named -/

/-- The first aggregation stage is the shared aggregation of `x0` along the edge list's two rows. -/
theorem v14_eq (x0 : FVec Ideal S50000x128 .f32) (x1 : IVec S2x800000 32) :
    val_main_v14 (F := Ideal) x0 x1 = aggr x0 (srcOf x1) (dstOf x1) := rfl

/-- The second aggregation stage is the same aggregation, of layer one's result. -/
theorem v44_eq (x0 : FVec Ideal S50000x128 .f32) (x1 : IVec S2x800000 32) (x2 : FVec Ideal S128x128 .f32)
    (x3 x4 x5 x6 : FVec Ideal S128 .f32) (x7 : FVec Ideal S128x128 .f32) :
    val_main_v44 (F := Ideal) x0 x1 x2 x3 x4 x5 x6 x7
      = aggr (val_main_v33 (F := Ideal) x0 x1 x2 x3 x4 x5 x6 x7) (srcOf x1) (dstOf x1) := rfl

/-- The four transposed weight arrays. -/
theorem v15_eq (x2 : FVec Ideal S128x128 .f32) : val_main_v15 (F := Ideal) x2 = tr128 x2 := rfl
theorem v31_eq (x7 : FVec Ideal S128x128 .f32) : val_main_v31 (F := Ideal) x7 = tr128 x7 := rfl
theorem v45_eq (x8 : FVec Ideal S128x128 .f32) : val_main_v45 (F := Ideal) x8 = tr128 x8 := rfl
theorem v48_eq (x9 : FVec Ideal S40x128 .f32) : val_main_v48 (F := Ideal) x9 = tr40 x9 := rfl

/-! ### Layer one -/

/-- Entry `(r, c)` of the stage after the second `relu`: the sum over the hidden column `k` of
    `max ((row r of the aggregate · column k of the first weights - mean k) * scale k + beta k) 0` times entry
    `(k, c)` of the second weights, then `max · 0`. The broadcasts along the node axis read the four vectors at `k`. -/
theorem v33_eq (x0 : FVec Ideal S50000x128 .f32) (x1 : IVec S2x800000 32) (x2 : FVec Ideal S128x128 .f32)
    (x3 x4 x5 x6 : FVec Ideal S128 .f32) (x7 : FVec Ideal S128x128 .f32) :
    val_main_v33 (F := Ideal) x0 x1 x2 x3 x4 x5 x6 x7
      = layer1RArr (val_main_v14 (F := Ideal) x0 x1) (val_main_v15 (F := Ideal) x2) x3 x4 x5 x6
          (val_main_v31 (F := Ideal) x7) := by
  funext i
  simp only [val_main_v33_apply, val_main_call1_v0_apply, val_main_call1_cst_apply, val_main_v32_apply,
    val_main_v30_apply, val_main_call0_v0_apply, val_main_call0_cst_apply, val_main_v29_apply, val_main_v28_apply,
    val_main_v27_apply, val_main_v26_apply, val_main_v25_apply, val_main_v24_apply, val_main_v23_apply,
    val_main_v22_apply, val_main_v21_apply, val_main_v20_apply, val_main_cst_1_apply, val_main_v19_apply,
    val_main_v18_apply, val_main_v17_apply, val_main_v16_apply,
    Ideal.maximumf_def, Ideal.addf_def, Ideal.subf_def, Ideal.mulf_def, Ideal.hostDivf_def,
    Ideal.hostUnary_sqrt_def, Ideal.ofBits_def, Ideal.ofBits_zero_f32]
  generalize val_main_v14 (F := Ideal) x0 x1 = h
  generalize val_main_v15 (F := Ideal) x2 = wa
  generalize val_main_v31 (F := Ideal) x7 = wb
  -- the indices the stages read at, by coordinates
  have e1 : ∀ k k' : Fin 128, lidx_main_v16 (lidx_main_v32 i k) k' = ix2 (n0 := 50000) (n1 := 128) (i 0) k' :=
    fun k k' => funext fun a => by match a with | ⟨0, _⟩ => rfl | ⟨1, _⟩ => rfl
  have e2 : ∀ k k' : Fin 128, ridx_main_v16 (lidx_main_v32 i k) k' = ix2 (n0 := 128) (n1 := 128) k' k :=
    fun k k' => funext fun a => by match a with | ⟨0, _⟩ => rfl | ⟨1, _⟩ => rfl
  have e3 : ∀ k : Fin 128, ridx_main_v32 i k = ix2 (n0 := 128) (n1 := 128) k (i 1) :=
    fun k => funext fun a => by match a with | ⟨0, _⟩ => rfl | ⟨1, _⟩ => rfl
  have e4 : ∀ k : Fin 128, idx_main_v17 (idx_main_v18 (lidx_main_v32 i k)) = ix1 (n := 128) k :=
    fun k => funext fun a => by match a with | ⟨0, _⟩ => rfl
  have e5 : ∀ k : Fin 128, idx_main_v24 (idx_main_v25 (lidx_main_v32 i k)) = ix1 (n := 128) k :=
    fun k => funext fun a => by match a with | ⟨0, _⟩ => rfl
  have e6 : ∀ k : Fin 128, idx_main_v27 (idx_main_v28 (lidx_main_v32 i k)) = ix1 (n := 128) k :=
    fun k => funext fun a => by match a with | ⟨0, _⟩ => rfl
  simp only [e1, e2, e3, e4, e5, e6]
  rfl

/-! ### Layer two -/

/-- Entry `(r, c)` of the last stage: the sum over `k` of `max (row r of the aggregate · column k of the first
    weights) 0` times entry `(k, c)` of the second weights, then `max · 0`. -/
theorem v50_eq (x0 : FVec Ideal S50000x128 .f32) (x1 : IVec S2x800000 32) (x2 : FVec Ideal S128x128 .f32)
    (x3 x4 x5 x6 : FVec Ideal S128 .f32) (x7 x8 : FVec Ideal S128x128 .f32) (x9 : FVec Ideal S40x128 .f32) :
    val_main_v50 (F := Ideal) x0 x1 x2 x3 x4 x5 x6 x7 x8 x9
      = layer2Arr (val_main_v44 (F := Ideal) x0 x1 x2 x3 x4 x5 x6 x7) (val_main_v45 (F := Ideal) x8)
          (val_main_v48 (F := Ideal) x9) := by
  funext i
  simp only [val_main_v50_apply, val_main_call3_v0_apply, val_main_call3_cst_apply, val_main_v49_apply,
    val_main_v47_apply, val_main_call2_v0_apply, val_main_call2_cst_apply, val_main_v46_apply,
    Ideal.maximumf_def, Ideal.ofBits_def, Ideal.ofBits_zero_f32]
  generalize val_main_v44 (F := Ideal) x0 x1 x2 x3 x4 x5 x6 x7 = h
  generalize val_main_v45 (F := Ideal) x8 = wa
  generalize val_main_v48 (F := Ideal) x9 = wb
  have e1 : ∀ k k' : Fin 128, lidx_main_v46 (lidx_main_v49 i k) k' = ix2 (n0 := 50000) (n1 := 128) (i 0) k' :=
    fun k k' => funext fun a => by match a with | ⟨0, _⟩ => rfl | ⟨1, _⟩ => rfl
  have e2 : ∀ k k' : Fin 128, ridx_main_v46 (lidx_main_v49 i k) k' = ix2 (n0 := 128) (n1 := 128) k' k :=
    fun k k' => funext fun a => by match a with | ⟨0, _⟩ => rfl | ⟨1, _⟩ => rfl
  have e3 : ∀ k : Fin 128, ridx_main_v49 i k = ix2 (n0 := 128) (n1 := 40) k (i 1) :=
    fun k => funext fun a => by match a with | ⟨0, _⟩ => rfl | ⟨1, _⟩ => rfl
  simp only [e1, e2, e3]
  rfl

/-! ### The composition -/

/-- The reference's last stage is layer two of the aggregate of layer one of the aggregate of `x0`. -/
theorem ref_value (x0 : FVec Ideal S50000x128 .f32) (x1 : IVec S2x800000 32) (x2 : FVec Ideal S128x128 .f32)
    (x3 x4 x5 x6 : FVec Ideal S128 .f32) (x7 x8 : FVec Ideal S128x128 .f32) (x9 : FVec Ideal S40x128 .f32) :
    val_main_v50 (F := Ideal) x0 x1 x2 x3 x4 x5 x6 x7 x8 x9
      = layer2Arr (aggr (layer1RArr (aggr x0 (srcOf x1) (dstOf x1)) (tr128 x2) x3 x4 x5 x6 (tr128 x7)) (srcOf x1) (dstOf x1))
          (tr128 x8) (tr40 x9) := by
  rw [v50_eq, v44_eq, v33_eq, v14_eq, v15_eq, v31_eq, v45_eq, v48_eq]

end Cert.Gin

end
-- ==== Proof.lean ====
/-
  The certificate of a two-layer graph network: each layer aggregates every node's neighbours into it
  (`h ↦ h + Σ_{edges into the node} h[source]`, done by the host in both programs with the same gather and
  scatter-add) and then applies a dense block per node. The kernel program runs the two dense blocks as two
  gridded regions over blocks of 2000 nodes; the reference runs them as whole-array products.

  Layer one is `relu (relu (BN (h · W1aᵀ)) · W1bᵀ)` with the batch normalisation in evaluation mode. The
  reference computes `(d - mean) * s + beta` with `s = gamma / sqrt (var + eps)`; the kernel program has the
  host compute the rows `s` and `beta - mean * s` beforehand and computes `d * s + (beta - mean * s)`. On
  the extended reals the two agree for every `d`, finite or not, as soon as `s`, `mean` and `beta` are real,
  and `s` is real when `gamma` is real and `var` is a non-negative real (`eps` is a positive real): that is
  where the precondition is used — the finiteness of `gamma`, `beta`, `mean`, `var` and `var ≥ 0`. (At
  `var = -eps` the scale is infinite and the two forms differ.) Layer two, `relu (relu (h · W2aᵀ) · W2bᵀ)`,
  is the same expression on both sides. A matrix product into a zero accumulator and the host's product are
  the same sums, changes of float format are the identity, and a region's blocks tile the node axis, so
  each region's output array is the layer of its input array, entry by entry.

  The three frames: the two kernel programs' are their generated frame certificates; the reference has no
  kernel and its frame is its run with the result dropped. The idealization rewrote nothing, so
  `preserves` has nothing to state.
-/
import proofs.«118297_j90056874262918_1_alg».proof.Defs
import proofs.«118297_j90056874262918_1_alg».proof.Proof.Gen.Kernel
import proofs.«118297_j90056874262918_1_alg».proof.Proof.Gen.Kernel.Skeleton
import proofs.«118297_j90056874262918_1_alg».proof.Proof.Gen.Kernel.Launch
import proofs.«118297_j90056874262918_1_alg».proof.Proof.Gen.Kernel.Points
import proofs.«118297_j90056874262918_1_alg».proof.Proof.Gen.Kernel.Frame
import proofs.«118297_j90056874262918_1_alg».proof.Proof.Gen.KernelIdeal
import proofs.«118297_j90056874262918_1_alg».proof.Proof.Gen.KernelIdeal.Skeleton
import proofs.«118297_j90056874262918_1_alg».proof.Proof.Gen.KernelIdeal.Launch
import proofs.«118297_j90056874262918_1_alg».proof.Proof.Gen.KernelIdeal.Points
import proofs.«118297_j90056874262918_1_alg».proof.Proof.Gen.KernelIdeal.Frame
import proofs.«118297_j90056874262918_1_alg».proof.Proof.Gen.ReferenceIdeal
import proofs.«118297_j90056874262918_1_alg».proof.Proof.Gen.ReferenceIdeal.Run
import proofs.«118297_j90056874262918_1_alg».proof.Proof.Gen.ReferenceIdeal.Read
import proofs.«118297_j90056874262918_1_alg».proof.Proof.Gen.Pre_finite_inputs
import proofs.«118297_j90056874262918_1_alg».proof.Proof.KernelIdealRun
import proofs.«118297_j90056874262918_1_alg».proof.Proof.KVal0
import proofs.«118297_j90056874262918_1_alg».proof.Proof.KVal1
import proofs.«118297_j90056874262918_1_alg».proof.Proof.KHost
import proofs.«118297_j90056874262918_1_alg».proof.Proof.Law
import proofs.«118297_j90056874262918_1_alg».proof.Proof.PreFacts
import proofs.«118297_j90056874262918_1_alg».proof.Proof.RefRead
import Idealize.ShloMosaic.Adequacy
import Idealize.ShloMosaic.Init

set_option maxRecDepth 16384

noncomputable section

/-! ## The kernel program's result as a function of the launch arrays -/

namespace Cert.KernelIdeal.Result

open Idealize.ShloMosaic Idealize.ShloMosaic.TcCoe Idealize.ShloMosaic.ValueIdx Idealize.SL.Sem
open Cert.KernelIdeal Cert.KernelIdeal.Gen Cert.KernelIdeal.Host Cert.Gin

variable (m : (ℓ : Loc nD τ sig) → Buf (Elt Ideal) ℓ) (ρ : Dev nD → PrngReg)

/-- What the first region leaves: layer one, in the plain form, of the aggregated node features. The region's
    array is layer one with the host's scale and shift rows; the precondition makes the two forms one. -/
theorem region_one (hpre : Cert.Pre_KernelIdeal m) (c : Dev nD) :
    W2 m ρ c (Proc.devRef .tc main_v27)
      = layer1RArr (aggr (m ((c.tc : Thread nD τ).loc main_arg0)) (srcOf (m ((c.tc : Thread nD τ).loc main_arg1))) (dstOf (m ((c.tc : Thread nD τ).loc main_arg1)))) (tr128 (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (tr128 (m ((c.tc : Thread nD τ).loc main_arg7))) := by
  refine (W2_arr m ρ c 5).trans ?_
  rw [Cert.KernelIdeal.Val0.final]
  funext i
  show layer1K (V1 m ρ c main_v14) (V1 m ρ c main_v24) (V1 m ρ c main_v19) (V1 m ρ c main_v22) (V1 m ρ c main_v26) (i 0) (i 1)
    = layer1R (aggr (m ((c.tc : Thread nD τ).loc main_arg0)) (srcOf (m ((c.tc : Thread nD τ).loc main_arg1))) (dstOf (m ((c.tc : Thread nD τ).loc main_arg1)))) (tr128 (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (tr128 (m ((c.tc : Thread nD τ).loc main_arg7))) (i 0) (i 1)
  rw [Cert.KernelIdeal.Host.v14_eq, Cert.KernelIdeal.Host.v24_eq, Cert.KernelIdeal.Host.v26_eq]
  obtain ⟨hg, hb, hm, hv⟩ := reals_of_pre _ _ _ _ _ _ _ _ _ _ (hpre c)
  exact layer1K_eq_layer1R _ _ _ _ _ _ _ _ _ (fun k => v19_apply m ρ c k) (fun k => v22_apply m ρ c k) hg hb hm hv (i 0) (i 1)

/-- The result array after the run: layer two of the aggregate of layer one of the aggregate. -/
theorem result_eq (hpre : Cert.Pre_KernelIdeal m) (c : Dev nD) :
    W4 m ρ c (Proc.devRef .tc main_v43)
      = layer2Arr (aggr (layer1RArr (aggr (m ((c.tc : Thread nD τ).loc main_arg0)) (srcOf (m ((c.tc : Thread nD τ).loc main_arg1))) (dstOf (m ((c.tc : Thread nD τ).loc main_arg1)))) (tr128 (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (tr128 (m ((c.tc : Thread nD τ).loc main_arg7)))) (srcOf (m ((c.tc : Thread nD τ).loc main_arg1))) (dstOf (m ((c.tc : Thread nD τ).loc main_arg1)))) (tr128 (m ((c.tc : Thread nD τ).loc main_arg8))) (tr40 (m ((c.tc : Thread nD τ).loc main_arg9))) := by
  refine (W4_arr m ρ c 3).trans ?_
  rw [Cert.KernelIdeal.Val1.final]
  funext i
  show layer2 (V3 m ρ c main_v38) (V3 m ρ c main_v40) (V3 m ρ c main_v42) (i 0) (i 1) = _
  rw [Cert.KernelIdeal.Host.v38_eq, Cert.KernelIdeal.Host.v40_eq, Cert.KernelIdeal.Host.v42_eq, w2_v1, w2_v3, w2_arg8, w2_arg9, region_one m ρ hpre c]
  rfl

end Cert.KernelIdeal.Result

/-! ## The claims -/

namespace Cert.Proof

open Idealize.ShloMosaic Idealize.ShloMosaic.TcCoe Idealize.SL.Sem Cert.Gin

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the same function of the launch arrays: the kernel program's by
    `Result.result_eq`, the reference's by its run read one operation at a time. -/
theorem algebraic : Cert.algebraic_KernelIdeal_ReferenceIdeal := by
  intro m ρ m' ρ' hpre hagree
  refine ⟨fun c => layer2Arr (aggr (layer1RArr (aggr (m ((c.tc : Thread Cert.KernelIdeal.nD Cert.KernelIdeal.τ).loc Cert.KernelIdeal.main_arg0)) (srcOf (m ((c.tc : Thread Cert.KernelIdeal.nD Cert.KernelIdeal.τ).loc Cert.KernelIdeal.main_arg1))) (dstOf (m ((c.tc : Thread Cert.KernelIdeal.nD Cert.KernelIdeal.τ).loc Cert.KernelIdeal.main_arg1)))) (tr128 (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (tr128 (m ((c.tc : Thread Cert.KernelIdeal.nD Cert.KernelIdeal.τ).loc Cert.KernelIdeal.main_arg7)))) (srcOf (m ((c.tc : Thread Cert.KernelIdeal.nD Cert.KernelIdeal.τ).loc Cert.KernelIdeal.main_arg1))) (dstOf (m ((c.tc : Thread Cert.KernelIdeal.nD Cert.KernelIdeal.τ).loc Cert.KernelIdeal.main_arg1)))) (tr128 (m ((c.tc : Thread Cert.KernelIdeal.nD Cert.KernelIdeal.τ).loc Cert.KernelIdeal.main_arg8))) (tr40 (m ((c.tc : Thread Cert.KernelIdeal.nD Cert.KernelIdeal.τ).loc Cert.KernelIdeal.main_arg9))), ?_, ?_⟩
  · exact (θ_run Cert.KernelIdeal.defs _ _).mono
      (fun r h c => ⟨(h c).1.trans (Cert.KernelIdeal.Result.result_eq m ρ hpre c), (h c).2⟩)
      (Cert.KernelIdeal.Run.run_out m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v50_eq, Cert.Gin.ref_value]
    obtain ⟨a0, a1, a2, a3, a4, a5, a6, a7, a8, a9⟩ := hagree c
    rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
